-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S2048x1024, .bf16⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  broadcasts_S1x1024_S512x1024 : S1x1024.Broadcasts S512x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_1_0_0_n_n_wf : DotDims.WF S2048x1024 S1024x1024 S2048x1024 [1] [1] [0] [0] [] []
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .f32 = 32 ∨ (Rect.block (s := S4x2048x1024) S1x512x1024.size (cc0_transform_7 i) (hinb0_7 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.AttnSpec.lean ====
/-
  Scaled dot-product self-attention over one batch of sequences, written twice on the extended reals.

  Both programs compute, for a batch `b`, a query row `s` and an output column `e`,
  `∑ t, softmax_t (c · ⟨q b s, k b t⟩) · v b t e` with `q = x·Wqᵀ + bq`, `k = x·Wkᵀ + bk`, `v = x·Wvᵀ + bv` and `c = 1/32`.
  They differ in where the scale and the normalising quotient sit:
  * the kernel scales the query first, `⟨q·c, k⟩`, and divides the weighted sum of the value rows ONCE by the row's
    denominator: `(∑ t, w t · v t) / l`;
  * the reference scales the score, `⟨q, k⟩ · c`, and divides every weight: `∑ t, (w t / l) · v t`.
  Everything else — the projections, the row maximum taken from `⊥`, the weights `exp (score − max)`, the denominator —
  is one and the same function of the scores on both sides, stated once here. A result entry depends on ONE query row,
  on all the key rows and on all the value rows of its batch, so the two arrangements are stated per query row.
-/
import Idealize.ShloMosaic.PureOps.Ideal
import Idealize.ShloMosaic.Lib.ValueIdx

noncomputable section

namespace Cert.Attn

open Idealize.ShloMosaic Idealize.ShloMosaic.ValueIdx

/-! ## The argument arrays through their coordinates -/

/-- A [4, 2048, 1024] array read at (batch, row, column). -/
def cur3 (X : FVec Ideal ⟨3, ![4, 2048, 1024]⟩ .f32) (b : Fin 4) (s : Fin 2048) (d : Fin 1024) : EReal := X (ix3 b s d)
/-- A [1024, 1024] matrix read at (row, column). -/
def cur2 (W : FVec Ideal ⟨2, ![1024, 1024]⟩ .f32) (e d : Fin 1024) : EReal := W (ix2 e d)
/-- A [1024] vector read at its coordinate. -/
def cur1 (v : FVec Ideal ⟨1, ![1024]⟩ .f32) (e : Fin 1024) : EReal := v (ix1 e)

/-! ## What both sides share -/

/-- A linear layer `x·Wᵀ + bias`: entry `(b, s, e)` is `∑ d, x b s d · W e d + bias e`. -/
def proj (x : Fin 4 → Fin 2048 → Fin 1024 → EReal) (W : Fin 1024 → Fin 1024 → EReal) (bias : Fin 1024 → EReal)
    (b : Fin 4) (s : Fin 2048) (e : Fin 1024) : EReal :=
  (∑ d : Fin 1024, x b s d * W e d) + bias e

/-- The greatest of a row of 2048 scores, folded from `⊥`. -/
def rowMax (sc : Fin 2048 → EReal) : EReal := (Finset.univ : Finset (Fin 2048)).fold max ⊥ sc

/-- The unnormalised softmax weight of key `t`: `exp (score t − max)`. -/
def wts (sc : Fin 2048 → EReal) (t : Fin 2048) : EReal := Ideal.exp (sc t - rowMax sc)

/-- The softmax denominator of a row: the sum of its weights. -/
def den (sc : Fin 2048 → EReal) : EReal := ∑ t : Fin 2048, wts sc t

/-! ## One query row, the kernel's way -/

/-- The kernel's scores of one query row against every key row: the query is scaled before the product. -/
def scoreRowK (qrow : Fin 1024 → EReal) (K : Fin 2048 → Fin 1024 → EReal) (c : EReal) (t : Fin 2048) : EReal :=
  ∑ e : Fin 1024, (qrow e * c) * K t e

/-- The kernel's result row: the weighted sum of the value rows, divided once by the denominator. -/
def rowOutK (qrow : Fin 1024 → EReal) (K V : Fin 2048 → Fin 1024 → EReal) (c : EReal) (e : Fin 1024) : EReal :=
  Ideal.div (∑ t : Fin 2048, wts (scoreRowK qrow K c) t * V t e) (den (scoreRowK qrow K c))

/-! ## One query row, the reference's way -/

/-- The reference's scores of one query row: the product of query and key is scaled afterwards. -/
def scoreRowR (qrow : Fin 1024 → EReal) (K : Fin 2048 → Fin 1024 → EReal) (c : EReal) (t : Fin 2048) : EReal :=
  (∑ e : Fin 1024, qrow e * K t e) * c

/-- The reference's result row: every weight divided by the denominator, then the weighted sum of the value rows. -/
def rowOutR (qrow : Fin 1024 → EReal) (K V : Fin 2048 → Fin 1024 → EReal) (c : EReal) (e : Fin 1024) : EReal :=
  ∑ t : Fin 2048, Ideal.div (wts (scoreRowR qrow K c) t) (den (scoreRowR qrow K c)) * V t e

/-! ## The whole arrays -/

/-- The kernel-side function of the seven argument arrays, through curried coordinates. -/
def attnK (x : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (c : EReal) (b : Fin 4) (s : Fin 2048) (e : Fin 1024) : EReal :=
  rowOutK (proj x Wq bq b s) (proj x Wk bk b) (proj x Wv bv b) c e

/-- The reference-side function of the seven argument arrays. -/
def attnR (x : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (c : EReal) (b : Fin 4) (s : Fin 2048) (e : Fin 1024) : EReal :=
  rowOutR (proj x Wq bq b s) (proj x Wk bk b) (proj x Wv bv b) c e

/-! ## The two scale constants as the programs spell them -/

/-- The kernel's scale: the f32 literal `0.03125`. -/
def cK : EReal := Ideal.ofBits .f32 0x3D000000#32
/-- The reference's scale: `1.0 / sqrt 1024.0`, computed on the host. -/
def cR : EReal := Ideal.div (Ideal.ofBits .f32 0x3F800000#32) (Ideal.sqrt (Ideal.ofBits .f32 0x44800000#32))

end Cert.Attn

end
-- ==== Proof.RealSums.lean ====
/-
  Finite sums on the extended reals whose terms are real numbers: such a sum is itself a real number, the
  coercion of the sum of the reals.
-/
import Mathlib.Data.EReal.Basic
import Mathlib.Algebra.BigOperators.Group.Finset.Basic

namespace Cert.Attn

open scoped BigOperators

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Cert.Attn
-- ==== Proof.AttnAlgebra.lean ====
/-
  The two arrangements of one attention row agree when every entry is a real number.
-/
import proofs.«430891_j23235773071931_3_alg».proof.Proof.AttnSpec
import proofs.«430891_j23235773071931_3_alg».proof.Proof.RealSums

noncomputable section

namespace Cert.Attn

open Idealize.ShloMosaic

/-! ## The scale constants -/

/-- The kernel's literal `0.03125` denotes the real `1/32`. -/
theorem cK_eq : cK = ((1 / 32 : ℝ) : EReal) := by
  simp [cK, Ideal.ofBits, Ideal.ieee, -EReal.coe_mul]; norm_num

/-- The f32 pattern `0x3F800000` is the real `1`. -/
theorem one_bits : Ideal.ofBits .f32 0x3F800000#32 = ((1 : ℝ) : EReal) := by
  simp [Ideal.ofBits, Ideal.ieee, -EReal.coe_mul]; norm_num

/-- The f32 pattern `0x44800000` is the real `1024`. -/
theorem k1024_bits : Ideal.ofBits .f32 0x44800000#32 = ((1024 : ℝ) : EReal) := by
  simp [Ideal.ofBits, Ideal.ieee, -EReal.coe_mul]; norm_num

/-- `√1024 = 32`, as `1024 = 32²`. -/
theorem sqrt_1024 : Real.sqrt 1024 = 32 := by
  rw [show (1024 : ℝ) = 32 ^ 2 by norm_num]
  exact Real.sqrt_sq (by norm_num)

/-- The reference's `1.0 / sqrt 1024.0` is the real `1/32`: `1024 = 32²`. -/
theorem cR_eq : cR = ((1 / 32 : ℝ) : EReal) := by
  rw [cR, one_bits, k1024_bits, Ideal.sqrt_coe, if_neg (by norm_num), sqrt_1024,
    Ideal.div_coe (by norm_num), ← EReal.coe_mul]
  norm_num

/-! ## A linear layer of reals -/

/-- A linear layer of real arrays has real entries. -/
theorem proj_coe (x : Fin 4 → Fin 2048 → Fin 1024 → ℝ) (W : Fin 1024 → Fin 1024 → ℝ) (bias : Fin 1024 → ℝ)
    (b : Fin 4) (s : Fin 2048) (e : Fin 1024) :
    proj (fun b s d => ((x b s d : ℝ) : EReal)) (fun e d => ((W e d : ℝ) : EReal)) (fun e => ((bias e : ℝ) : EReal)) b s e
      = (((∑ d : Fin 1024, x b s d * W e d) + bias e : ℝ) : EReal) := by
  show (∑ d : Fin 1024, ((x b s d : ℝ) : EReal) * ((W e d : ℝ) : EReal)) + ((bias e : ℝ) : EReal) = _
  simp only [← EReal.coe_mul]
  rw [coe_sum, ← EReal.coe_add]

/-! ## The scores of a real row are real, and the two forms are one real -/

/-- The kernel's scores of a real query row against real key rows, with a real scale. -/
theorem scoreRowK_coe (qrow : Fin 1024 → ℝ) (K : Fin 2048 → Fin 1024 → ℝ) (c : ℝ) :
    scoreRowK (fun i => ((qrow i : ℝ) : EReal)) (fun t i => ((K t i : ℝ) : EReal)) (c : EReal)
      = fun t => (((∑ e : Fin 1024, qrow e * K t e) * c : ℝ) : EReal) := by
  funext t
  show (∑ e : Fin 1024, (((qrow e : ℝ) : EReal) * (c : EReal)) * ((K t e : ℝ) : EReal)) = _
  simp only [← EReal.coe_mul]
  rw [coe_sum, Finset.sum_mul]
  exact congrArg _ (Finset.sum_congr rfl fun e _ => by ring)

/-- The reference's scores of a real query row against real key rows, with a real scale. -/
theorem scoreRowR_coe (qrow : Fin 1024 → ℝ) (K : Fin 2048 → Fin 1024 → ℝ) (c : ℝ) :
    scoreRowR (fun i => ((qrow i : ℝ) : EReal)) (fun t i => ((K t i : ℝ) : EReal)) (c : EReal)
      = fun t => (((∑ e : Fin 1024, qrow e * K t e) * c : ℝ) : EReal) := by
  funext t
  show (∑ e : Fin 1024, ((qrow e : ℝ) : EReal) * ((K t e : ℝ) : EReal)) * (c : EReal) = _
  simp only [← EReal.coe_mul]
  rw [coe_sum, ← EReal.coe_mul]

/-! ## The greatest of finitely many reals, folded from `⊥`, is a real -/

/-- Over a nonempty finite set, the fold of `max` from `⊥` over coerced reals is a coerced real. -/
theorem fold_max_coe {ι : Type*} (s : Finset ι) (hs : s.Nonempty) (f : ι → ℝ) :
    ∃ M : ℝ, s.fold max ⊥ (fun i => ((f i : ℝ) : EReal)) = (M : EReal) := by
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- The greatest of a row of real scores is a real. -/
theorem rowMax_coe (sc : Fin 2048 → ℝ) : ∃ M : ℝ, rowMax (fun t => ((sc t : ℝ) : EReal)) = (M : EReal) :=
  fold_max_coe Finset.univ Finset.univ_nonempty sc

/-! ## One row of real scores: dividing once, or dividing every weight -/

/-- For a row of real scores and real value rows, the weighted sum divided by the denominator equals the sum weighted
    by the divided weights: the maximum is a real `M`, every weight is the real `exp (sc t − M)`, the denominator is
    their positive real sum `l`, and `(∑ t, w t · v t) · (1/l) = ∑ t, (w t · (1/l)) · v t`. -/
theorem row_core (sc : Fin 2048 → ℝ) (V : Fin 2048 → Fin 1024 → ℝ) (e : Fin 1024) :
    Ideal.div (∑ t : Fin 2048, wts (fun t => ((sc t : ℝ) : EReal)) t * ((V t e : ℝ) : EReal))
        (den (fun t => ((sc t : ℝ) : EReal)))
      = ∑ t : Fin 2048, Ideal.div (wts (fun t => ((sc t : ℝ) : EReal)) t) (den (fun t => ((sc t : ℝ) : EReal)))
          * ((V t e : ℝ) : EReal) := by
  obtain ⟨M, hM⟩ := rowMax_coe sc
  have hw : ∀ t, wts (fun t => ((sc t : ℝ) : EReal)) t = ((Real.exp (sc t - M) : ℝ) : EReal) := by
    intro t
    show Ideal.exp (((sc t : ℝ) : EReal) - rowMax (fun t => ((sc t : ℝ) : EReal))) = _
    rw [hM, ← EReal.coe_sub, Ideal.exp_coe]
  have hd : den (fun t => ((sc t : ℝ) : EReal)) = ((∑ t : Fin 2048, Real.exp (sc t - M) : ℝ) : EReal) := by
    show (∑ t : Fin 2048, wts (fun t => ((sc t : ℝ) : EReal)) t) = _
    simp only [hw]
    exact coe_sum _ _
  have hl : (∑ t : Fin 2048, Real.exp (sc t - M)) ≠ 0 :=
    (Finset.sum_pos (fun t _ => Real.exp_pos _) Finset.univ_nonempty).ne'
  rw [hd]
  simp only [hw, Ideal.div_coe hl, ← EReal.coe_mul]
  rw [coe_sum, coe_sum, ← EReal.coe_mul, Finset.sum_mul]
  exact congrArg _ (Finset.sum_congr rfl fun t _ => by ring)

/-- On a real query row, real key rows and real value rows, with a real scale, the kernel's arrangement of the row and
    the reference's are equal. -/
theorem rowOutK_eq_rowOutR (qrow : Fin 1024 → ℝ) (K V : Fin 2048 → Fin 1024 → ℝ) (c : ℝ) (e : Fin 1024) :
    rowOutK (fun i => ((qrow i : ℝ) : EReal)) (fun t i => ((K t i : ℝ) : EReal)) (fun t i => ((V t i : ℝ) : EReal)) (c : EReal) e
      = rowOutR (fun i => ((qrow i : ℝ) : EReal)) (fun t i => ((K t i : ℝ) : EReal)) (fun t i => ((V t i : ℝ) : EReal)) (c : EReal) e := by
  rw [rowOutK, rowOutR, scoreRowK_coe, scoreRowR_coe]
  exact row_core _ V e

/-- On real argument arrays the kernel-side function, with the kernel's scale, and the reference-side function, with
    the reference's, are equal. -/
theorem attnK_eq_attnR (x : Fin 4 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (b : Fin 4) (s : Fin 2048) (e : Fin 1024) :
    attnK (fun b s d => ((x b s d : ℝ) : EReal)) (fun e d => ((Wq e d : ℝ) : EReal)) (fun e => ((bq e : ℝ) : EReal))
        (fun e d => ((Wk e d : ℝ) : EReal)) (fun e => ((bk e : ℝ) : EReal)) (fun e d => ((Wv e d : ℝ) : EReal)) (fun e => ((bv e : ℝ) : EReal)) cK b s e
      = attnR (fun b s d => ((x b s d : ℝ) : EReal)) (fun e d => ((Wq e d : ℝ) : EReal)) (fun e => ((bq e : ℝ) : EReal))
        (fun e d => ((Wk e d : ℝ) : EReal)) (fun e => ((bk e : ℝ) : EReal)) (fun e d => ((Wv e d : ℝ) : EReal)) (fun e => ((bv e : ℝ) : EReal)) cR b s e := by
  have hq : proj (fun b s d => ((x b s d : ℝ) : EReal)) (fun e d => ((Wq e d : ℝ) : EReal)) (fun e => ((bq e : ℝ) : EReal)) b s
      = fun i => (((∑ d : Fin 1024, x b s d * Wq i d) + bq i : ℝ) : EReal) :=
    funext fun i => proj_coe x Wq bq b s i
  have hk : proj (fun b s d => ((x b s d : ℝ) : EReal)) (fun e d => ((Wk e d : ℝ) : EReal)) (fun e => ((bk e : ℝ) : EReal)) b
      = fun t i => (((∑ d : Fin 1024, x b t d * Wk i d) + bk i : ℝ) : EReal) :=
    funext fun t => funext fun i => proj_coe x Wk bk b t i
  have hv : proj (fun b s d => ((x b s d : ℝ) : EReal)) (fun e d => ((Wv e d : ℝ) : EReal)) (fun e => ((bv e : ℝ) : EReal)) b
      = fun t i => (((∑ d : Fin 1024, x b t d * Wv i d) + bv i : ℝ) : EReal) :=
    funext fun t => funext fun i => proj_coe x Wv bv b t i
  rw [attnK, attnR, hq, hk, hv, cK_eq, cR_eq]
  exact rowOutK_eq_rowOutR _ _ _ _ e

end Cert.Attn

end
-- ==== Proof.FiniteArgs.lean ====
/-
  Under the precondition every entry of the seven argument arrays is a real number.
-/
import proofs.«430891_j23235773071931_3_alg».proof.Pre_finite_inputs
import proofs.«430891_j23235773071931_3_alg».proof.Proof.Gen.Pre_finite_inputs
import proofs.«430891_j23235773071931_3_alg».proof.Proof.AttnSpec
import Idealize.ShloMosaic.Lib.ReduceAll

noncomputable section

namespace Cert.Attn

open Idealize.ShloMosaic Idealize.ShloMosaic.ValueIdx

namespace FiniteArgs

/-- An extended real whose absolute value `max x (-x)` lies below `⊤` is a real number: `⊥` and `⊤` both have
    absolute value `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|a i| < +∞` being the word 1 says the entry `a i` is a real number. -/
theorem entry_real {s : Shape} (a : FVec Ideal s .f32)
    (hb : Cert.Pre_finite_inputs.S_.BroadcastsInDim s (![] : Fin 0 → Fin s.rank)) (i : s.Idx)
    (h : cmpf .olt (Host.absf a)
        (broadcastInDim s ![] hb (constant (F := Ideal) Cert.Pre_finite_inputs.S_ .f32 0x7F800000#32)) i = 1#1) :
    ∃ r : ℝ, a i = (r : EReal) := by
  have htop : Ideal.ofBits .f32 0x7F800000#32 = ⊤ := by simp [Ideal.ofBits, Ideal.ieee]
  have h' : BitVec.ofBool (decide (max (a i : EReal) (-(a i : EReal)) < Ideal.ofBits .f32 0x7F800000#32)) = 1#1 := h
  rw [htop] at h'
  refine real_of_abs_lt_top (a i) ?_
  by_contra hn
  rw [decide_eq_false hn] at h'
  exact absurd h' (by decide)

/-- One array: if the conjunction over all its entries of `|a i| < +∞` is the word 1, every entry is a real number. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi (cmpf .olt (Host.absf a)
        (broadcastInDim s ![] hb (constant (F := Ideal) Cert.Pre_finite_inputs.S_ .f32 0x7F800000#32))) init hr hu ix0 = 1#1) :
    ∀ i : s.Idx, ∃ r : ℝ, a i = (r : EReal) := by
  -- the scalar shape has one index
  haveI : Subsingleton Cert.Pre_finite_inputs.S_.Idx := ⟨fun _ _ => funext fun d => d.elim0⟩
  exact fun i => entry_real a hb i (Host.reduce_andi_all _ init hr hu ix0 h i)

end FiniteArgs

/-- If the printed predicate `finite_inputs` is all ones on seven arrays of extended reals, each array is the coercion
    of an array of reals. -/
theorem real_of_pre [Cert.Pre_finite_inputs.Facts]
    (a0 : FVec Ideal Cert.Pre_finite_inputs.S4x2048x1024 .f32) (a1 : FVec Ideal Cert.Pre_finite_inputs.S1024x1024 .f32)
    (a2 : FVec Ideal Cert.Pre_finite_inputs.S1024 .f32) (a3 : FVec Ideal Cert.Pre_finite_inputs.S1024x1024 .f32)
    (a4 : FVec Ideal Cert.Pre_finite_inputs.S1024 .f32) (a5 : FVec Ideal Cert.Pre_finite_inputs.S1024x1024 .f32)
    (a6 : FVec Ideal Cert.Pre_finite_inputs.S1024 .f32)
    (h : Cert.Pre_finite_inputs.fn (F := Ideal) a0 a1 a2 a3 a4 a5 a6 = fun _ => 1#1) :
    (∃ x : Fin 4 → Fin 2048 → Fin 1024 → ℝ, cur3 a0 = fun b s d => ((x b s d : ℝ) : EReal))
    ∧ (∃ w : Fin 1024 → Fin 1024 → ℝ, cur2 a1 = fun e d => ((w e d : ℝ) : EReal))
    ∧ (∃ v : Fin 1024 → ℝ, cur1 a2 = fun e => ((v e : ℝ) : EReal))
    ∧ (∃ w : Fin 1024 → Fin 1024 → ℝ, cur2 a3 = fun e d => ((w e d : ℝ) : EReal))
    ∧ (∃ v : Fin 1024 → ℝ, cur1 a4 = fun e => ((v e : ℝ) : EReal))
    ∧ (∃ w : Fin 1024 → Fin 1024 → ℝ, cur2 a5 = fun e d => ((w e d : ℝ) : EReal))
    ∧ (∃ v : Fin 1024 → ℝ, cur1 a6 = fun e => ((v e : ℝ) : EReal)) := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  choose x0 hx0 using FiniteArgs.all_real a0 _ _ _ _ e0
  choose x1 hx1 using FiniteArgs.all_real a1 _ _ _ _ e1
  choose x2 hx2 using FiniteArgs.all_real a2 _ _ _ _ e2
  choose x3 hx3 using FiniteArgs.all_real a3 _ _ _ _ e3
  choose x4 hx4 using FiniteArgs.all_real a4 _ _ _ _ e4
  choose x5 hx5 using FiniteArgs.all_real a5 _ _ _ _ e5
  choose x6 hx6 using FiniteArgs.all_real a6 _ _ _ _ e6
  exact ⟨⟨fun b s d => x0 (ix3 b s d), funext fun b => funext fun s => funext fun d => hx0 (ix3 b s d)⟩,
    ⟨fun e d => x1 (ix2 e d), funext fun e => funext fun d => hx1 (ix2 e d)⟩,
    ⟨fun e => x2 (ix1 e), funext fun e => hx2 (ix1 e)⟩,
    ⟨fun e d => x3 (ix2 e d), funext fun e => funext fun d => hx3 (ix2 e d)⟩,
    ⟨fun e => x4 (ix1 e), funext fun e => hx4 (ix1 e)⟩,
    ⟨fun e d => x5 (ix2 e d), funext fun e => funext fun d => hx5 (ix2 e d)⟩,
    ⟨fun e => x6 (ix1 e), funext fun e => hx6 (ix1 e)⟩⟩

end Cert.Attn

end
-- ==== Proof.RefValue.lean ====
/-
  The reference program's result, read at (batch, row, column), is the reference-side attention function of the
  argument arrays.
-/
import proofs.«430891_j23235773071931_3_alg».proof.Proof.Gen.ReferenceIdeal.Read
import proofs.«430891_j23235773071931_3_alg».proof.Proof.AttnSpec

noncomputable section

namespace Cert.ReferenceIdeal.RefValue

open Cert.ReferenceIdeal Cert.ReferenceIdeal.Gen Idealize.ShloMosaic Idealize.ShloMosaic.ValueIdx Cert.Attn
open Cert.ReferenceIdeal.Read

/-! ## The three linear layers -/

/-- The query projection at (batch, row, column). -/
theorem q_apply (x0 : FVec Ideal S4x2048x1024 .f32) (x1 : FVec Ideal S1024x1024 .f32) (x2 : FVec Ideal S1024 .f32)
    (b : Fin 4) (s : Fin 2048) (e : Fin 1024) :
    val_main_v3 (F := Ideal) x0 x1 x2 (ix3 b s e) = proj (cur3 x0) (cur2 x1) (cur1 x2) b s e := by
  rw [val_main_v3_apply, val_main_v0_apply, val_main_v2_apply, val_main_v1_apply]
  have hl : ∀ k : Fin 1024, lidx_main_v0 (ix3 b s e) k = ix3 b s k := fun k => funext fun a => Fin.ext (by
    match a with | ⟨0, _⟩ => rfl | ⟨1, _⟩ => rfl | ⟨2, _⟩ => rfl)
  have hr : ∀ k : Fin 1024, ridx_main_v0 (ix3 b s e) k = ix2 e k := fun k => funext fun a => Fin.ext (by
    match a with | ⟨0, _⟩ => rfl | ⟨1, _⟩ => rfl)
  have hb : idx_main_v1 (idx_main_v2 (ix3 b s e)) = ix1 e := funext fun a => Fin.ext (by
    match a with | ⟨0, _⟩ => rfl)
  rw [hb]
  simp only [hl, hr]
  rfl

/-- The key projection at (batch, row, column). -/
theorem k_apply (x0 : FVec Ideal S4x2048x1024 .f32) (x3 : FVec Ideal S1024x1024 .f32) (x4 : FVec Ideal S1024 .f32)
    (b : Fin 4) (s : Fin 2048) (e : Fin 1024) :
    val_main_v7 (F := Ideal) x0 x3 x4 (ix3 b s e) = proj (cur3 x0) (cur2 x3) (cur1 x4) b s e := by
  rw [val_main_v7_apply, val_main_v4_apply, val_main_v6_apply, val_main_v5_apply]
  have hl : ∀ k : Fin 1024, lidx_main_v4 (ix3 b s e) k = ix3 b s k := fun k => funext fun a => Fin.ext (by
    match a with | ⟨0, _⟩ => rfl | ⟨1, _⟩ => rfl | ⟨2, _⟩ => rfl)
  have hr : ∀ k : Fin 1024, ridx_main_v4 (ix3 b s e) k = ix2 e k := fun k => funext fun a => Fin.ext (by
    match a with | ⟨0, _⟩ => rfl | ⟨1, _⟩ => rfl)
  have hb : idx_main_v5 (idx_main_v6 (ix3 b s e)) = ix1 e := funext fun a => Fin.ext (by
    match a with | ⟨0, _⟩ => rfl)
  rw [hb]
  simp only [hl, hr]
  rfl

/-- The value projection at (batch, row, column). -/
theorem v_apply (x0 : FVec Ideal S4x2048x1024 .f32) (x5 : FVec Ideal S1024x1024 .f32) (x6 : FVec Ideal S1024 .f32)
    (b : Fin 4) (s : Fin 2048) (e : Fin 1024) :
    val_main_v11 (F := Ideal) x0 x5 x6 (ix3 b s e) = proj (cur3 x0) (cur2 x5) (cur1 x6) b s e := by
  rw [val_main_v11_apply, val_main_v8_apply, val_main_v10_apply, val_main_v9_apply]
  have hl : ∀ k : Fin 1024, lidx_main_v8 (ix3 b s e) k = ix3 b s k := fun k => funext fun a => Fin.ext (by
    match a with | ⟨0, _⟩ => rfl | ⟨1, _⟩ => rfl | ⟨2, _⟩ => rfl)
  have hr : ∀ k : Fin 1024, ridx_main_v8 (ix3 b s e) k = ix2 e k := fun k => funext fun a => Fin.ext (by
    match a with | ⟨0, _⟩ => rfl | ⟨1, _⟩ => rfl)
  have hb : idx_main_v9 (idx_main_v10 (ix3 b s e)) = ix1 e := funext fun a => Fin.ext (by
    match a with | ⟨0, _⟩ => rfl)
  rw [hb]
  simp only [hl, hr]
  rfl

/-! ## The scale and the scores -/

/-- The scale the reference computes on the host, one over the square root of 1024. -/
theorem scale_apply (i : S_.Idx) : val_main_v13 (F := Ideal) i = cR := rfl

/-- The score of query row (b, s) against key row t: the product of the two projections' rows, scaled afterwards. -/
theorem score_apply (x0 : FVec Ideal S4x2048x1024 .f32) (x1 : FVec Ideal S1024x1024 .f32) (x2 : FVec Ideal S1024 .f32)
    (x3 : FVec Ideal S1024x1024 .f32) (x4 : FVec Ideal S1024 .f32) (b : Fin 4) (s t : Fin 2048) :
    val_main_v16 (F := Ideal) x0 x1 x2 x3 x4 (ix3 b s t)
      = scoreRowR (proj (cur3 x0) (cur2 x1) (cur1 x2) b s) (proj (cur3 x0) (cur2 x3) (cur1 x4) b) cR t := by
  rw [val_main_v16_apply, val_main_v14_apply, val_main_v15_apply, scale_apply]
  have hl : ∀ k : Fin 1024, lidx_main_v14 (ix3 b s t) k = ix3 b s k := fun k => funext fun a => Fin.ext (by
    match a with | ⟨0, _⟩ => rfl | ⟨1, _⟩ => rfl | ⟨2, _⟩ => rfl)
  have hr : ∀ k : Fin 1024, ridx_main_v14 (ix3 b s t) k = ix3 b t k := fun k => funext fun a => Fin.ext (by
    match a with | ⟨0, _⟩ => rfl | ⟨1, _⟩ => rfl | ⟨2, _⟩ => rfl)
  simp only [hl, hr, q_apply, k_apply]
  rfl

/-- The scores of query row (b, s), as a function of the key row. -/
theorem score_row (x0 : FVec Ideal S4x2048x1024 .f32) (x1 : FVec Ideal S1024x1024 .f32) (x2 : FVec Ideal S1024 .f32)
    (x3 : FVec Ideal S1024x1024 .f32) (x4 : FVec Ideal S1024 .f32) (b : Fin 4) (s : Fin 2048) :
    (fun t : Fin 2048 => val_main_v16 (F := Ideal) x0 x1 x2 x3 x4 (ix3 b s t))
      = scoreRowR (proj (cur3 x0) (cur2 x1) (cur1 x2) b s) (proj (cur3 x0) (cur2 x3) (cur1 x4) b) cR :=
  funext fun t => score_apply x0 x1 x2 x3 x4 b s t

/-! ## The row maximum, the weights and the denominator -/

/-- The pattern of the f32 negative infinity is the least extended real. -/
theorem ofBits_negInf : Ideal.ofBits .f32 0xFF800000#32 = ⊥ := by simp [Ideal.ofBits, Ideal.ieee]

/-- The greatest score of query row (b, s): the maximum with the negative infinity of the fold, from the negative infinity,
    of the maximum over the key rows. -/
theorem max_apply (x0 : FVec Ideal S4x2048x1024 .f32) (x1 : FVec Ideal S1024x1024 .f32) (x2 : FVec Ideal S1024 .f32)
    (x3 : FVec Ideal S1024x1024 .f32) (x4 : FVec Ideal S1024 .f32) (b : Fin 4) (s : Fin 2048) :
    val_main_v19 (F := Ideal) x0 x1 x2 x3 x4 (ix2 b s)
      = rowMax (scoreRowR (proj (cur3 x0) (cur2 x1) (cur1 x2) b s) (proj (cur3 x0) (cur2 x3) (cur1 x4) b) cR) := by
  have hred : S4x2048x2048.Reduces [2] S4x2048 := by decide
  have e17 : val_main_v17 (F := Ideal) x0 x1 x2 x3 x4 (ix2 b s)
      = rowMax (scoreRowR (proj (cur3 x0) (cur2 x1) (cur1 x2) b s) (proj (cur3 x0) (cur2 x3) (cur1 x4) b) cR) := by
    unfold val_main_v17
    refine (Host.reduce_eq_fold_single FloatOps.maximumf _ _ reducesTo_S4x2048x2048_S4x2048_d2 hred h_S_ (ix2 b s)).trans ?_
    have hf : (val_main_v16 (F := Ideal) x0 x1 x2 x3 x4 ∘ hred.lift (ix2 b s))
        = scoreRowR (proj (cur3 x0) (cur2 x1) (cur1 x2) b s) (proj (cur3 x0) (cur2 x3) (cur1 x4) b) cR :=
      funext fun t : Fin 2048 => by
        show val_main_v16 (F := Ideal) x0 x1 x2 x3 x4 (hred.lift (ix2 b s) t) = _
        have hi : hred.lift (ix2 b s) t = ix3 b s t := funext fun a => Fin.ext (by
          match a with | ⟨0, _⟩ => rfl | ⟨1, _⟩ => rfl | ⟨2, _⟩ => rfl)
        rw [hi, score_apply]
    rw [hf]
    have hbot : val_main_cst_1 (F := Ideal) (Shape.Idx.first h_S_) = ⊥ := ofBits_negInf
    rw [hbot]
    rfl
  rw [val_main_v19_apply, val_main_v18_apply, e17]
  have hbot : val_main_cst_2 (F := Ideal) (idx_main_v18 (ix2 b s)) = ⊥ := ofBits_negInf
  rw [hbot]
  exact max_bot_left _

/-- The unnormalised weight of key row t for query row (b, s). -/
theorem wts_apply (x0 : FVec Ideal S4x2048x1024 .f32) (x1 : FVec Ideal S1024x1024 .f32) (x2 : FVec Ideal S1024 .f32)
    (x3 : FVec Ideal S1024x1024 .f32) (x4 : FVec Ideal S1024 .f32) (b : Fin 4) (s t : Fin 2048) :
    val_main_v23 (F := Ideal) x0 x1 x2 x3 x4 (ix3 b s t)
      = wts (scoreRowR (proj (cur3 x0) (cur2 x1) (cur1 x2) b s) (proj (cur3 x0) (cur2 x3) (cur1 x4) b) cR) t := by
  rw [val_main_v23_apply, val_main_v22_apply, val_main_v21_apply, val_main_v20_apply]
  have hi : idx_main_v20 (idx_main_v21 (ix3 b s t)) = ix2 b s := funext fun a => Fin.ext (by
    match a with | ⟨0, _⟩ => rfl | ⟨1, _⟩ => rfl)
  rw [hi, max_apply, score_apply]
  rfl

/-- The denominator of query row (b, s): zero plus the sum of the row's weights. -/
theorem den_apply (x0 : FVec Ideal S4x2048x1024 .f32) (x1 : FVec Ideal S1024x1024 .f32) (x2 : FVec Ideal S1024 .f32)
    (x3 : FVec Ideal S1024x1024 .f32) (x4 : FVec Ideal S1024 .f32) (b : Fin 4) (s : Fin 2048) :
    val_main_v24 (F := Ideal) x0 x1 x2 x3 x4 (ix2 b s)
      = den (scoreRowR (proj (cur3 x0) (cur2 x1) (cur1 x2) b s) (proj (cur3 x0) (cur2 x3) (cur1 x4) b) cR) := by
  rw [val_main_v24_apply]
  have hi : ∀ k : Fin 2048, idx_main_v24 (ix2 b s) k = ix3 b s k := fun k => funext fun a => Fin.ext (by
    match a with | ⟨0, _⟩ => rfl | ⟨1, _⟩ => rfl | ⟨2, _⟩ => rfl)
  simp only [hi, wts_apply]
  have hz : val_main_cst_3 (F := Ideal) (Shape.Idx.first h_S_) = 0 := Ideal.ofBits_zero_f32
  rw [hz, zero_add]
  rfl

/-! ## The result -/

/-- The last stage of the reference, at an index, as the reference's arrangement of the attention row. -/
theorem ref_apply (x0 : FVec Ideal S4x2048x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32)
    (b : Fin 4) (s : Fin 2048) (e : Fin 1024) :
    Cert.ReferenceIdeal.Read.val_main_v28 (F := Ideal) x0 x1 x2 x3 x4 x5 x6 (ix3 b s e)
      = attnR (cur3 x0) (cur2 x1) (cur1 x2) (cur2 x3) (cur1 x4) (cur2 x5) (cur1 x6) cR b s e := by
  rw [val_main_v28_apply]
  unfold attnR rowOutR
  refine Finset.sum_congr rfl fun t _ => ?_
  have hl : lidx_main_v28 (ix3 b s e) t = ix3 b s t := funext fun a => Fin.ext (by
    match a with | ⟨0, _⟩ => rfl | ⟨1, _⟩ => rfl | ⟨2, _⟩ => rfl)
  have hr : ridx_main_v28 (ix3 b s e) t = ix3 b t e := funext fun a => Fin.ext (by
    match a with | ⟨0, _⟩ => rfl | ⟨1, _⟩ => rfl | ⟨2, _⟩ => rfl)
  have hi : idx_main_v25 (idx_main_v26 (ix3 b s t)) = ix2 b s := funext fun a => Fin.ext (by
    match a with | ⟨0, _⟩ => rfl | ⟨1, _⟩ => rfl)
  rw [hl, hr, v_apply, val_main_v27_apply, val_main_v26_apply, val_main_v25_apply, hi, den_apply, wts_apply]
  rfl

end Cert.ReferenceIdeal.RefValue

end
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.KernelPayload.lean ====
/-
  The kernel body's arithmetic, read at an index: the key / value projection written to the scratch at a batch's
  first query tile, and the attention tile computed from a query tile and the two scratch arrays.
-/
import proofs.«430891_j23235773071931_3_alg».proof.Proof.Gen.KernelIdeal.Skeleton
import proofs.«430891_j23235773071931_3_alg».proof.Proof.AttnSpec
import proofs.«430891_j23235773071931_3_alg».proof.Proof.LibColumns
import Idealize.ShloMosaic.PureOps.Ideal.Laws
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx Cert.Attn

/-! ### The contraction S2048x1024 × S1024x1024 → S2048x1024 -/

theorem lhs_kv_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_kv_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs_kv_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_kv_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The product against the transposed right factor, into the zero splat: entry (r, c) is ∑ k, x (r, k) · w (c, k). -/
theorem matmul_kv_apply {φ₁ φ₂ : FTy} (x : FVec Ideal S2048x1024 φ₁) (w : FVec Ideal S1024x1024 φ₂) (r : Fin 2048) (c : Fin 1024) :
    matmul dot_S2048x1024_S1024x1024_S2048x1024_1_1_0_0_n_n none x w (constant S2048x1024 .f32 0x00000000#32) (ix2 r c)
      = ∑ k : Fin 1024, x (ix2 r k) * w (ix2 c k) := by
  show FloatOps.matmul dot_S2048x1024_S1024x1024_S2048x1024_1_1_0_0_n_n none x w (constant S2048x1024 .f32 0x00000000#32) (ix2 r c) = _
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 r c) ((ValueIdx.contrEquiv1 dot_S2048x1024_S1024x1024_S2048x1024_1_1_0_0_n_n 1024 rfl rfl).symm k) = ix2 r k := funext fun a => Fin.ext (by
    match a with
    | ⟨0, _⟩ => exact lhs_kv_0 _ _
    | ⟨1, _⟩ => exact (lhs_kv_1 _ _).trans hk)
  have er : dot_S2048x1024_S1024x1024_S2048x1024_1_1_0_0_n_n.rhsIdx (ix2 r c) ((ValueIdx.contrEquiv1 dot_S2048x1024_S1024x1024_S2048x1024_1_1_0_0_n_n 1024 rfl rfl).symm k) = ix2 c k := funext fun a => Fin.ext (by
    match a with
    | ⟨0, _⟩ => exact rhs_kv_0 _ _
    | ⟨1, _⟩ => exact (rhs_kv_1 _ _).trans hk)
  rw [el, er]

/-! ### The contraction S512x1024 × S1024x1024 → S512x1024 -/

theorem lhs_q_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_q_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_q_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_q_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product against the transposed right factor, into the zero splat: entry (r, c) is ∑ k, x (r, k) · w (c, k). -/
theorem matmul_q_apply {φ₁ φ₂ : FTy} (x : FVec Ideal S512x1024 φ₁) (w : FVec Ideal S1024x1024 φ₂) (r : Fin 512) (c : Fin 1024) :
    matmul dot_S512x1024_S1024x1024_S512x1024_1_1_0_0_n_n none x w (constant S512x1024 .f32 0x00000000#32) (ix2 r c)
      = ∑ k : Fin 1024, x (ix2 r k) * w (ix2 c k) := by
  show FloatOps.matmul dot_S512x1024_S1024x1024_S512x1024_1_1_0_0_n_n none x w (constant S512x1024 .f32 0x00000000#32) (ix2 r c) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r c) ((ValueIdx.contrEquiv1 dot_S512x1024_S1024x1024_S512x1024_1_1_0_0_n_n 1024 rfl rfl).symm k) = ix2 r k := funext fun a => Fin.ext (by
    match a with
    | ⟨0, _⟩ => exact lhs_q_0 _ _
    | ⟨1, _⟩ => exact (lhs_q_1 _ _).trans hk)
  have er : dot_S512x1024_S1024x1024_S512x1024_1_1_0_0_n_n.rhsIdx (ix2 r c) ((ValueIdx.contrEquiv1 dot_S512x1024_S1024x1024_S512x1024_1_1_0_0_n_n 1024 rfl rfl).symm k) = ix2 c k := funext fun a => Fin.ext (by
    match a with
    | ⟨0, _⟩ => exact rhs_q_0 _ _
    | ⟨1, _⟩ => exact (rhs_q_1 _ _).trans hk)
  rw [el, er]

/-! ### The contraction S512x1024 × S2048x1024 → S512x2048 -/

theorem lhs_sc_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem lhs_sc_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem rhs_sc_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem rhs_sc_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The product against the transposed right factor, into the zero splat: entry (r, c) is ∑ k, x (r, k) · w (c, k). -/
theorem matmul_sc_apply {φ₁ φ₂ : FTy} (x : FVec Ideal S512x1024 φ₁) (w : FVec Ideal S2048x1024 φ₂) (r : Fin 512) (c : Fin 2048) :
    matmul dot_S512x1024_S2048x1024_S512x2048_1_1_0_0_n_n none x w (constant S512x2048 .f32 0x00000000#32) (ix2 r c)
      = ∑ k : Fin 1024, x (ix2 r k) * w (ix2 c k) := by
  show FloatOps.matmul dot_S512x1024_S2048x1024_S512x2048_1_1_0_0_n_n none x w (constant S512x2048 .f32 0x00000000#32) (ix2 r c) = _
  rw [Ideal.matmul_constant_zero_apply, ← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 r c) ((ValueIdx.contrEquiv1 dot_S512x1024_S2048x1024_S512x2048_1_1_0_0_n_n 1024 rfl rfl).symm k) = ix2 r k := funext fun a => Fin.ext (by
    match a with
    | ⟨0, _⟩ => exact lhs_sc_0 _ _
    | ⟨1, _⟩ => exact (lhs_sc_1 _ _).trans hk)
  have er : dot_S512x1024_S2048x1024_S512x2048_1_1_0_0_n_n.rhsIdx (ix2 r c) ((ValueIdx.contrEquiv1 dot_S512x1024_S2048x1024_S512x2048_1_1_0_0_n_n 1024 rfl rfl).symm k) = ix2 c k := funext fun a => Fin.ext (by
    match a with
    | ⟨0, _⟩ => exact rhs_sc_0 _ _
    | ⟨1, _⟩ => exact (rhs_sc_1 _ _).trans hk)
  rw [el, er]

/-! ### The contraction S512x2048 × S2048x1024 → S512x1024 -/

theorem lhs_pv_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_pv_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_pv_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
theorem rhs_pv_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q

/-- The plain product, into the zero splat: entry (r, c) is ∑ k, x (r, k) · w (k, c). -/
theorem matmul_pv_apply {φ₁ φ₂ : FTy} (x : FVec Ideal S512x2048 φ₁) (w : FVec Ideal S2048x1024 φ₂) (r : Fin 512) (c : Fin 1024) :
    matmul dot_S512x2048_S2048x1024_S512x1024_1_0_0_1_n_n none x w (constant S512x1024 .f32 0x00000000#32) (ix2 r c)
      = ∑ k : Fin 2048, x (ix2 r k) * w (ix2 k c) := by
  show FloatOps.matmul dot_S512x2048_S2048x1024_S512x1024_1_0_0_1_n_n none x w (constant S512x1024 .f32 0x00000000#32) (ix2 r c) = _
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 r c) ((ValueIdx.contrEquiv1 dot_S512x2048_S2048x1024_S512x1024_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x1024_S512x1024_1_0_0_1_n_n.rhsIdx (ix2 r c) ((ValueIdx.contrEquiv1 dot_S512x2048_S2048x1024_S512x1024_1_0_0_1_n_n 2048 rfl rfl).symm k) = ix2 k c := funext fun a => Fin.ext (by
    match a with
    | ⟨0, _⟩ => exact (rhs_pv_0 _ _).trans hk
    | ⟨1, _⟩ => exact rhs_pv_1 _ _)
  rw [el, er]

/-! ### Layout and reduction readings at coordinates -/

/-- An [a] array cast to [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The f32 pattern of -∞ is the bottom of the extended reals. -/
theorem ofBits_negInf_f32 : (FloatOps.ofBits .f32 0xFF800000#32 : Ideal .f32) = ⊥ := by
  show Ideal.ofBits .f32 0xFF800000#32 = ⊥
  simp [Ideal.ofBits, Ideal.ieee]

/-- The reduced index (r) with the lane coordinate t put back is (r, t). -/
theorem lift_row (r : Fin 512) (t : Fin 2048) :
    reduces_S512x2048_S512.lift (ix1 r) t = ix2 r t :=
  funext fun a => Fin.ext (by
    match a with
    | ⟨0, _⟩ => rfl
    | ⟨1, _⟩ => rfl)

/-- The lane maximum of a [512, 2048] array from -∞: at r, the fold of max from ⊥ over row r. -/
theorem laneMax_apply (src : FVec Ideal S512x2048 .f32) (r : Fin 512) :
    multiReduction .maximumf [1] S512 src 0xFF800000#32 reduces_S512x2048_S512 (.inl rfl) rfl (ix1 r)
      = (Finset.univ : Finset (Fin 2048)).fold max ⊥ (fun t => src (ix2 r t)) := by
  refine (Ideal.multiReduction_maximumf_single src 0xFF800000#32 reduces_S512x2048_S512 (.inl rfl) rfl (ix1 r)).trans ?_
  rw [ofBits_negInf_f32]
  exact congrArg (Finset.fold max ⊥ · (Finset.univ : Finset (Fin 2048))) (funext fun t => congrArg src (lift_row r t))

/-- The lane sum of a [512, 2048] array: at r, the sum over row r. -/
theorem laneSum_apply (src : FVec Ideal S512x2048 .f32) (r : Fin 512) :
    multiReduction .add [1] S512 src 0x00000000#32 reduces_S512x2048_S512 (.inl rfl) rfl (ix1 r)
      = ∑ t : Fin 2048, src (ix2 r t) := by
  refine (Ideal.multiReduction_add_single src 0x00000000#32 reduces_S512x2048_S512 (.inl rfl) rfl (ix1 r)).trans ?_
  exact Finset.sum_congr rfl fun t _ => congrArg src (lift_row r t)

/-! ### The attention tile, one query row at a time -/

/-- The score tile's row r: the projected query row, scaled, against every key row. -/
theorem score_apply (v6 : FVec Ideal S1x512x1024 .bf16) (v8 : FVec Ideal S1024x1024 .bf16) (v11 : FVec Ideal S1x1024 .f32)
    (v18 : FVec Ideal S2048x1024 .bf16) (r : Fin 512) (t : Fin 2048) :
    matmul dot_S512x1024_S2048x1024_S512x2048_1_1_0_0_n_n none
        (truncf .bf16
          (mulf
            (addf
              (matmul dot_S512x1024_S1024x1024_S512x1024_1_1_0_0_n_n none
                (shapeCast S512x1024 v6 shapeCasts_S1x512x1024_S512x1024) v8 (constant S512x1024 .f32 0x00000000#32))
              (broadcastTo S512x1024 v11 broadcasts_S1x1024_S512x1024))
            (broadcast S512x1024 (Scalar.ofBits .f32 0x3D000000#32)))
          bitsLt_bf16_f32)
        v18 (constant S512x2048 .f32 0x00000000#32) (ix2 r t)
      = scoreRowK (fun e' => (∑ d : Fin 1024, v6 (ix3 (0 : Fin 1) r d) * v8 (ix2 e' d)) + v11 (ix2 (0 : Fin 1) e'))
          (fun t e' => v18 (ix2 t e')) cK t := by
  refine (matmul_sc_apply _ v18 r t).trans ?_
  unfold scoreRowK
  refine Finset.sum_congr rfl fun k _ => congrArg (· * v18 (ix2 t k)) ?_
  refine congrArg (· * cK) ?_
  refine (congrArg₂ (· + ·) (matmul_q_apply _ v8 r k) (broadcastTo_1b_ab_apply v11 _ r k)).trans ?_
  exact congrArg (· + v11 (ix2 (0 : Fin 1) k))
    (Finset.sum_congr rfl fun d _ => congrArg (· * v8 (ix2 k d)) (shapeCast_1ab_ab_apply v6 _ r d))

/-- From a score tile s to the result tile: at (r, e), the weighted sum of the value rows over the row's denominator,
    the weights and the denominator taken from row r of s. -/
theorem tail_apply (s : FVec Ideal S512x2048 .f32) (v19 : FVec Ideal S2048x1024 .bf16) (r : Fin 512) (e : Fin 1024) :
    divf
      (matmul dot_S512x2048_S2048x1024_S512x1024_1_0_0_1_n_n none
        (truncf .bf16
          (exp
            (subf s
              (broadcastTo S512x2048
                (shapeCast S512x1
                  (multiReduction .maximumf [1] S512 s 0xFF800000#32 reduces_S512x2048_S512 (.inl rfl) rfl)
                  shapeCasts_S512_S512x1)
                broadcasts_S512x1_S512x2048)))
          bitsLt_bf16_f32)
        v19 (constant S512x1024 .f32 0x00000000#32))
      (broadcastTo S512x1024
        (shapeCast S512x1
          (multiReduction .add [1] S512
            (exp
              (subf s
                (broadcastTo S512x2048
                  (shapeCast S512x1
                    (multiReduction .maximumf [1] S512 s 0xFF800000#32 reduces_S512x2048_S512 (.inl rfl) rfl)
                    shapeCasts_S512_S512x1)
                  broadcasts_S512x1_S512x2048)))
            0x00000000#32 reduces_S512x2048_S512 (.inl rfl) rfl)
          shapeCasts_S512_S512x1)
        broadcasts_S512x1_S512x1024)
      (ix2 r e)
      = Ideal.div (∑ t : Fin 2048, wts (fun t => s (ix2 r t)) t * v19 (ix2 t e)) (den (fun t => s (ix2 r t))) := by
  have hm : ∀ t : Fin 2048,
      broadcastTo S512x2048
          (shapeCast S512x1
            (multiReduction .maximumf [1] S512 s 0xFF800000#32 reduces_S512x2048_S512 (.inl rfl) rfl)
            shapeCasts_S512_S512x1)
          broadcasts_S512x1_S512x2048 (ix2 r t)
        = rowMax (fun t => s (ix2 r t)) := fun t =>
    (Cert.LibColumns.broadcastTo_a1_ab_apply _ _ r t).trans
      ((shapeCast_a_a1_apply _ _ r (0 : Fin 1)).trans (laneMax_apply s r))
  have hw : ∀ t : Fin 2048,
      exp
          (subf s
            (broadcastTo S512x2048
              (shapeCast S512x1
                (multiReduction .maximumf [1] S512 s 0xFF800000#32 reduces_S512x2048_S512 (.inl rfl) rfl)
                shapeCasts_S512_S512x1)
              broadcasts_S512x1_S512x2048)) (ix2 r t)
        = wts (fun t => s (ix2 r t)) t := fun t =>
    congrArg (fun m => Ideal.exp (s (ix2 r t) - m)) (hm t)
  rw [divf_apply]
  refine congrArg₂ Ideal.div ?_ ?_
  · exact (matmul_pv_apply _ v19 r e).trans (Finset.sum_congr rfl fun t _ => congrArg (· * v19 (ix2 t e)) (hw t))
  · exact (Cert.LibColumns.broadcastTo_a1_ab_apply _ _ r e).trans
      ((shapeCast_a_a1_apply _ _ r (0 : Fin 1)).trans
        ((laneSum_apply _ r).trans (Finset.sum_congr rfl fun t _ => hw t)))

/-- The key projection stored to the first scratch: row `t`, column `e` is `∑ d, x t d · Wk e d + bk e`. -/
theorem pay3_apply (v36 : FVec Ideal S1x2048x1024 .bf16) (v38 : FVec Ideal S1024x1024 .bf16) (v44 : FVec Ideal S1x1024 .f32)
    (t : Fin 2048) (e : Fin 1024) :
    k0_pay3 (F := Ideal) v36 v38 v44 (ix2 t e)
      = (∑ d : Fin 1024, v36 (ix3 (0 : Fin 1) t d) * v38 (ix2 e d)) + v44 (ix2 (0 : Fin 1) e) := by
  unfold k0_pay3 k0_pay2
  simp only [shapeCast_self]
  refine (congrArg₂ (· + ·) (matmul_kv_apply _ v38 t e) (broadcastTo_1b_ab_apply v44 _ t e)).trans ?_
  exact congrArg (· + v44 (ix2 (0 : Fin 1) e))
    (Finset.sum_congr rfl fun d _ => congrArg (· * v38 (ix2 e d)) (shapeCast_1ab_ab_apply v36 _ t d))

/-- The value projection stored to the second scratch, likewise. -/
theorem pay4_apply (v36 : FVec Ideal S1x2048x1024 .bf16) (v40 : FVec Ideal S1024x1024 .bf16) (v48 : FVec Ideal S1x1024 .f32)
    (t : Fin 2048) (e : Fin 1024) :
    k0_pay4 (F := Ideal) v36 v40 v48 (ix2 t e)
      = (∑ d : Fin 1024, v36 (ix3 (0 : Fin 1) t d) * v40 (ix2 e d)) + v48 (ix2 (0 : Fin 1) e) := by
  unfold k0_pay4 k0_pay2
  simp only [shapeCast_self]
  refine (congrArg₂ (· + ·) (matmul_kv_apply _ v40 t e) (broadcastTo_1b_ab_apply v48 _ t e)).trans ?_
  exact congrArg (· + v48 (ix2 (0 : Fin 1) e))
    (Finset.sum_congr rfl fun d _ => congrArg (· * v40 (ix2 e d)) (shapeCast_1ab_ab_apply v36 _ t d))

/-- The attention tile: row `r` of the tile, column `e`, is the kernel's arrangement of the attention row whose query
    is row `r` of the projected query tile, against the key and value arrays read from the scratch. -/
theorem pay5_apply (v6 : FVec Ideal S1x512x1024 .bf16) (v8 : FVec Ideal S1024x1024 .bf16) (v11 : FVec Ideal S1x1024 .f32)
    (v18 v19 : FVec Ideal S2048x1024 .bf16) (r : Fin 512) (e : Fin 1024) :
    k0_pay5 (F := Ideal) v6 v8 v11 v18 v19 (ix2 r e)
      = rowOutK (fun e' => (∑ d : Fin 1024, v6 (ix3 (0 : Fin 1) r d) * v8 (ix2 e' d)) + v11 (ix2 (0 : Fin 1) e'))
          (fun t e' => v18 (ix2 t e')) (fun t e' => v19 (ix2 t e')) cK e := by
  unfold k0_pay5
  simp only [shapeCast_self]
  refine (tail_apply _ v19 r e).trans ?_
  unfold rowOutK
  rw [show (fun t : Fin 2048 =>
        matmul dot_S512x1024_S2048x1024_S512x2048_1_1_0_0_n_n none
          (truncf .bf16
            (mulf
              (addf
                (matmul dot_S512x1024_S1024x1024_S512x1024_1_1_0_0_n_n none
                  (shapeCast S512x1024 v6 shapeCasts_S1x512x1024_S512x1024) v8 (constant S512x1024 .f32 0x00000000#32))
                (broadcastTo S512x1024 v11 broadcasts_S1x1024_S512x1024))
              (broadcast S512x1024 (Scalar.ofBits .f32 0x3D000000#32)))
            bitsLt_bf16_f32)
          v18 (constant S512x2048 .f32 0x00000000#32) (ix2 r t))
      = scoreRowK (fun e' => (∑ d : Fin 1024, v6 (ix3 (0 : Fin 1) r d) * v8 (ix2 e' d)) + v11 (ix2 (0 : Fin 1) e'))
          (fun t e' => v18 (ix2 t e')) cK from funext fun t => score_apply v6 v8 v11 v18 r t]

/-- The stored block is the tile with a leading unit axis. -/
theorem pay1_apply (v32 : FVec Ideal S512x1024 .f32) (r : Fin 512) (e : Fin 1024) :
    k0_pay1 (F := Ideal) v32 (ix3 (0 : Fin 1) r e) = v32 (ix2 r e) := by
  unfold k0_pay1
  exact shapeCast_ab_1ab_apply v32 _ (0 : Fin 1) r e

end Cert.KernelIdeal.Payload

end
-- ==== Proof.KernelPieces.lean ====
/-
  What one run of the kernel body leaves behind, as functions of what it loaded.

  At a batch's first query tile the body stores the key projection and the value projection of the batch's whole
  sequence into the two scratch arrays and then computes its attention tile from what it just stored; at the other
  tiles it stores nothing into the scratch and computes its tile from what the scratch already holds. In both cases
  the query tile is rows `512·qi … 512·qi + 511` of the resident block of `x`.
-/
import proofs.«430891_j23235773071931_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile of a grid point: 512 rows of the batch's block of `x`, from row `512·qi`. -/
def xtile (i : grid0.Coords) (x0 : Vec F S1x2048x1024 .bf16) : Vec F S1x512x1024 .bf16 :=
  View.ld x0 (Rect.unit (s := S1x2048x1024) (k0_off1 i) S1x512x1024.size (k0_off1_inb i))

/-- First tile of a batch: the first scratch ends holding the key projection of the batch's block. -/
theorem scratchK_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_run_names
  rw [View.canon_unit_zero hz2]
  simp only [View.readCov_unit_zero (S := S2048x1024) _ hz2, View.readAt_eq_ld, harg2.read_unread, harg3.read_unread, harg4.read_unread, harg5.read_unread, harg6.read_unread, harg7.read_unread, harg8.read_unread, harg10.read_unread, harg11.read_unread, View.ld_unit_zero (S := S1x2048x1024) hz3, View.ld_unit_zero (S := S1024x1024) hz2, View.ld_unit_zero (S := S1x1024) hz2, View.ld_unit_zero (S := S2048x1024) hz2]

/-- First tile of a batch: the second scratch ends holding the value projection of the batch's block. -/
theorem scratchV_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_run_names
  rw [View.canon_unit_zero hz2]
  simp only [View.readCov_unit_zero (S := S2048x1024) _ hz2, View.readAt_eq_ld, harg2.read_unread, harg3.read_unread, harg4.read_unread, harg5.read_unread, harg6.read_unread, harg7.read_unread, harg8.read_unread, harg10.read_unread, harg11.read_unread, View.ld_unit_zero (S := S1x2048x1024) hz3, View.ld_unit_zero (S := S1024x1024) hz2, View.ld_unit_zero (S := S1x1024) hz2, View.ld_unit_zero (S := S2048x1024) hz2]

/-- First tile of a batch: the output block is the attention tile over the projections just stored. -/
theorem out_first (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay1 (k0_pay5 (xtile i x0) x1 x2 (k0_pay3 x0 x3 x4) (k0_pay4 x0 x5 x6)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_run_names
  rw [View.canon_unit_zero hz3]
  simp only [View.readCov_unit_zero (S := S2048x1024) _ hz2, View.readAt_eq_ld, harg2.read_unread, harg3.read_unread, harg4.read_unread, harg5.read_unread, harg6.read_unread, harg7.read_unread, harg8.read_unread, harg10.read_unread, harg11.read_unread, View.ld_unit_zero (S := S1x2048x1024) hz3, View.ld_unit_zero (S := S1024x1024) hz2, View.ld_unit_zero (S := S1x1024) hz2, View.ld_unit_zero (S := S2048x1024) hz2]
  rfl

/-- A later tile of a batch: the output block is the attention tile over what the scratch arrays hold. -/
theorem out_later (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : ¬cond0_0 i)
    (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) (xs0 xs1 : Vec F S2048x1024 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = k0_pay1 (k0_pay5 (xtile i x0) x1 x2 xs0 xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_run_names
  rw [View.canon_unit_zero hz3]
  simp only [View.readCov_unit_zero (S := S2048x1024) _ hz2, View.readAt_eq_ld, harg2.read_unread, harg3.read_unread, harg4.read_unread, harg5.read_unread, harg6.read_unread, harg7.read_unread, harg8.read_unread, harg10.read_unread, harg11.read_unread, View.ld_unit_zero (S := S1x2048x1024) hz3, View.ld_unit_zero (S := S1024x1024) hz2, View.ld_unit_zero (S := S1x1024) hz2, View.ld_unit_zero (S := S2048x1024) hz2]
  rfl

end Cert.KernelIdeal.Pieces

end
-- ==== Proof.KernelBlocks.lean ====
/-
  The blocks the kernel body is handed, in terms of the argument arrays.

  Before the call the host narrows `x` and the three weight matrices to bf16 (the identity on extended reals) and
  reshapes the three bias vectors to one-row matrices. The block of `x` at grid point `t = 4·b + qi` is batch `b`'s
  whole sequence; the weights and biases are passed whole at every point; the output block at `t` is rows
  `512·qi … 512·qi + 511` of batch `b`.
-/
import proofs.«430891_j23235773071931_3_alg».proof.Proof.Gen.KernelIdeal.Frame
import proofs.«430891_j23235773071931_3_alg».proof.Proof.AttnSpec
import Idealize.ShloMosaic.Lib.Pipeline.Value
import Idealize.ShloMosaic.Lib.StableHlo.Run
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ)

/-! ## The index maps over the sixteen grid points -/

theorem coords_qi : ∀ t : Fin cfg0.N, (grid0.coords t 1).val = t.val % 4 :=
  (by decide +kernel : ∀ t : Fin grid0.N, (grid0.coords t 1).val = t.val % 4)

theorem idx_x : ∀ t : Fin cfg0.N, win0_0.index t (0 : Fin 3) = t.val / 4 ∧ win0_0.index t (1 : Fin 3) = 0 ∧ win0_0.index t (2 : Fin 3) = 0 :=
  (by decide +kernel : ∀ t : Fin grid0.N, win0_0.index t (0 : Fin 3) = t.val / 4 ∧ win0_0.index t (1 : Fin 3) = 0 ∧ win0_0.index t (2 : Fin 3) = 0)

theorem idx_wq : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_bq : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_wk : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_bk : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_wv : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_bv : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem idx_out : ∀ t : Fin cfg0.N, win0_7.index t (0 : Fin 3) = t.val / 4 ∧ win0_7.index t (1 : Fin 3) = t.val % 4 ∧ win0_7.index t (2 : Fin 3) = 0 :=
  (by decide +kernel : ∀ t : Fin grid0.N, win0_7.index t (0 : Fin 3) = t.val / 4 ∧ win0_7.index t (1 : Fin 3) = t.val % 4 ∧ win0_7.index t (2 : Fin 3) = 0)

/-! ## The arrays as the call finds them -/

/-- The narrowed `x` is `x`. -/
theorem V_x (c : Dev nD) (b : Fin 4) (s : Fin 2048) (d : Fin 1024) :
    (V m c main_v0 : S4x2048x1024.Idx → EReal) (ix3 b s d) = cur3 (m ((c : Thread nD τ).loc main_arg0)) b s d := by
  have h : (V m c main_v0 : S4x2048x1024.Idx → EReal) = truncf (F := Ideal) .bf16 (m ((c : Thread nD τ).loc main_arg0)) bitsLt_bf16_f32 := by
    dsimp only [Gen.V, Gen.hostOps0]; after_results
  rw [h]; rfl

/-- The narrowed weight matrices are the weight matrices. -/
theorem V_wq (c : Dev nD) (e d : Fin 1024) :
    (V m c main_v1 : S1024x1024.Idx → EReal) (ix2 e d) = cur2 (m ((c : Thread nD τ).loc main_arg1)) e d := by
  have h : (V m c main_v1 : S1024x1024.Idx → EReal) = truncf (F := Ideal) .bf16 (m ((c : Thread nD τ).loc main_arg1)) bitsLt_bf16_f32 := by
    dsimp only [Gen.V, Gen.hostOps0]; after_results
  rw [h]; rfl

theorem V_wk (c : Dev nD) (e d : Fin 1024) :
    (V m c main_v2 : S1024x1024.Idx → EReal) (ix2 e d) = cur2 (m ((c : Thread nD τ).loc main_arg3)) e d := by
  have h : (V m c main_v2 : S1024x1024.Idx → EReal) = truncf (F := Ideal) .bf16 (m ((c : Thread nD τ).loc main_arg3)) bitsLt_bf16_f32 := by
    dsimp only [Gen.V, Gen.hostOps0]; after_results
  rw [h]; rfl

theorem V_wv (c : Dev nD) (e d : Fin 1024) :
    (V m c main_v3 : S1024x1024.Idx → EReal) (ix2 e d) = cur2 (m ((c : Thread nD τ).loc main_arg5)) e d := by
  have h : (V m c main_v3 : S1024x1024.Idx → EReal) = truncf (F := Ideal) .bf16 (m ((c : Thread nD τ).loc main_arg5)) bitsLt_bf16_f32 := by
    dsimp only [Gen.V, Gen.hostOps0]; after_results
  rw [h]; rfl

/-- A bias reshaped to one row is the bias. -/
theorem V_bq (c : Dev nD) (e : Fin 1024) :
    (V m c main_v4 : S1x1024.Idx → EReal) (ix2 (0 : Fin 1) e) = cur1 (m ((c : Thread nD τ).loc main_arg2)) e := by
  have h : (V m c main_v4 : S1x1024.Idx → EReal)
      = fun i => shapeCast S1x1024 (m ((c : Thread nD τ).loc main_arg2)) shapeCasts_S1024_S1x1024 i := by
    dsimp only [Gen.V, Gen.hostOps0]; after_results; rfl
  rw [h]
  exact shapeCast_a_1a_apply _ _ (0 : Fin 1) e

theorem V_bk (c : Dev nD) (e : Fin 1024) :
    (V m c main_v5 : S1x1024.Idx → EReal) (ix2 (0 : Fin 1) e) = cur1 (m ((c : Thread nD τ).loc main_arg4)) e := by
  have h : (V m c main_v5 : S1x1024.Idx → EReal)
      = fun i => shapeCast S1x1024 (m ((c : Thread nD τ).loc main_arg4)) shapeCasts_S1024_S1x1024 i := by
    dsimp only [Gen.V, Gen.hostOps0]; after_results; rfl
  rw [h]
  exact shapeCast_a_1a_apply _ _ (0 : Fin 1) e

theorem V_bv (c : Dev nD) (e : Fin 1024) :
    (V m c main_v6 : S1x1024.Idx → EReal) (ix2 (0 : Fin 1) e) = cur1 (m ((c : Thread nD τ).loc main_arg6)) e := by
  have h : (V m c main_v6 : S1x1024.Idx → EReal)
      = fun i => shapeCast S1x1024 (m ((c : Thread nD τ).loc main_arg6)) shapeCasts_S1024_S1x1024 i := by
    dsimp only [Gen.V, Gen.hostOps0]; after_results; rfl
  rw [h]
  exact shapeCast_a_1a_apply _ _ (0 : Fin 1) e

/-! ## The blocks at a grid point -/

/-- The block of `x` at point `t` is batch `t / 4`. -/
theorem blk_x (c : Dev nD) (t : Fin cfg0.N) (hb : t.val / 4 < 4) (s : Fin 2048) (d : Fin 1024) :
    (iblk m c 0 t : Vec Ideal S1x2048x1024 .bf16) (ix3 (0 : Fin 1) s d)
      = cur3 (m ((c : Thread nD τ).loc main_arg0)) ⟨t.val / 4, hb⟩ s d := by
  refine Eq.trans ?_ (V_x m c ⟨t.val / 4, hb⟩ s d)
  unfold iblk
  rw [View.read_apply]
  show V m c main_v0 _ = V m c main_v0 _
  congr 1
  funext a
  apply Fin.ext
  match a with
  | ⟨0, _⟩ => show win0_0.index t 0 * 1 + 1 * 0 = t.val / 4; rw [(idx_x t).1]; omega
  | ⟨1, _⟩ => show win0_0.index t 1 * 2048 + 1 * s.val = s.val; rw [(idx_x t).2.1]; omega
  | ⟨2, _⟩ => show win0_0.index t 2 * 1024 + 1 * d.val = d.val; rw [(idx_x t).2.2]; omega

/-- The query weights are passed whole. -/
theorem blk_wq (c : Dev nD) (t : Fin cfg0.N) (e d : Fin 1024) :
    (iblk m c 1 t : Vec Ideal S1024x1024 .bf16) (ix2 e d) = cur2 (m ((c : Thread nD τ).loc main_arg1)) e d := by
  refine Eq.trans ?_ (V_wq m c e d)
  unfold iblk
  rw [View.read_apply]
  show V m c main_v1 _ = V m c main_v1 _
  congr 1
  funext a
  apply Fin.ext
  match a with
  | ⟨0, _⟩ => show win0_1.index t 0 * 1024 + 1 * e.val = e.val; rw [(idx_wq t).1]; omega
  | ⟨1, _⟩ => show win0_1.index t 1 * 1024 + 1 * d.val = d.val; rw [(idx_wq t).2]; omega

/-- The key weights are passed whole. -/
theorem blk_wk (c : Dev nD) (t : Fin cfg0.N) (e d : Fin 1024) :
    (iblk m c 3 t : Vec Ideal S1024x1024 .bf16) (ix2 e d) = cur2 (m ((c : Thread nD τ).loc main_arg3)) e d := by
  refine Eq.trans ?_ (V_wk m c e d)
  unfold iblk
  rw [View.read_apply]
  show V m c main_v2 _ = V m c main_v2 _
  congr 1
  funext a
  apply Fin.ext
  match a with
  | ⟨0, _⟩ => show win0_3.index t 0 * 1024 + 1 * e.val = e.val; rw [(idx_wk t).1]; omega
  | ⟨1, _⟩ => show win0_3.index t 1 * 1024 + 1 * d.val = d.val; rw [(idx_wk t).2]; omega

/-- The value weights are passed whole. -/
theorem blk_wv (c : Dev nD) (t : Fin cfg0.N) (e d : Fin 1024) :
    (iblk m c 5 t : Vec Ideal S1024x1024 .bf16) (ix2 e d) = cur2 (m ((c : Thread nD τ).loc main_arg5)) e d := by
  refine Eq.trans ?_ (V_wv m c e d)
  unfold iblk
  rw [View.read_apply]
  show V m c main_v3 _ = V m c main_v3 _
  congr 1
  funext a
  apply Fin.ext
  match a with
  | ⟨0, _⟩ => show win0_5.index t 0 * 1024 + 1 * e.val = e.val; rw [(idx_wv t).1]; omega
  | ⟨1, _⟩ => show win0_5.index t 1 * 1024 + 1 * d.val = d.val; rw [(idx_wv t).2]; omega

/-- The query bias is passed whole. -/
theorem blk_bq (c : Dev nD) (t : Fin cfg0.N) (e : Fin 1024) :
    (iblk m c 2 t : Vec Ideal S1x1024 .f32) (ix2 (0 : Fin 1) e) = cur1 (m ((c : Thread nD τ).loc main_arg2)) e := by
  refine Eq.trans ?_ (V_bq m c e)
  unfold iblk
  rw [View.read_apply]
  show V m c main_v4 _ = V m c main_v4 _
  congr 1
  funext a
  apply Fin.ext
  match a with
  | ⟨0, _⟩ => show win0_2.index t 0 * 1 + 1 * 0 = 0; rw [(idx_bq t).1]
  | ⟨1, _⟩ => show win0_2.index t 1 * 1024 + 1 * e.val = e.val; rw [(idx_bq t).2]; omega

/-- The key bias is passed whole. -/
theorem blk_bk (c : Dev nD) (t : Fin cfg0.N) (e : Fin 1024) :
    (iblk m c 4 t : Vec Ideal S1x1024 .f32) (ix2 (0 : Fin 1) e) = cur1 (m ((c : Thread nD τ).loc main_arg4)) e := by
  refine Eq.trans ?_ (V_bk m c e)
  unfold iblk
  rw [View.read_apply]
  show V m c main_v5 _ = V m c main_v5 _
  congr 1
  funext a
  apply Fin.ext
  match a with
  | ⟨0, _⟩ => show win0_4.index t 0 * 1 + 1 * 0 = 0; rw [(idx_bk t).1]
  | ⟨1, _⟩ => show win0_4.index t 1 * 1024 + 1 * e.val = e.val; rw [(idx_bk t).2]; omega

/-- The value bias is passed whole. -/
theorem blk_bv (c : Dev nD) (t : Fin cfg0.N) (e : Fin 1024) :
    (iblk m c 6 t : Vec Ideal S1x1024 .f32) (ix2 (0 : Fin 1) e) = cur1 (m ((c : Thread nD τ).loc main_arg6)) e := by
  refine Eq.trans ?_ (V_bv m c e)
  unfold iblk
  rw [View.read_apply]
  show V m c main_v6 _ = V m c main_v6 _
  congr 1
  funext a
  apply Fin.ext
  match a with
  | ⟨0, _⟩ => show win0_6.index t 0 * 1 + 1 * 0 = 0; rw [(idx_bv t).1]
  | ⟨1, _⟩ => show win0_6.index t 1 * 1024 + 1 * e.val = e.val; rw [(idx_bv t).2]; omega

end Cert.KernelIdeal.Blocks

end
-- ==== Proof.KernelValue.lean ====
/-
  The kernel's result array after the run, read at (batch, row, column), is the kernel-side attention function of the
  argument arrays.

  After grid point `t = 4·b + qi` the output's staging block is the attention tile of rows `512·qi …` of batch `b` over
  whatever the two scratch arrays hold; the scratch arrays hold, after every point of batch `b`, the key and value
  projections of batch `b` (stored at `qi = 0`, kept afterwards: an induction on the point); every point writes its
  block back, no two blocks meet, and entry `(b, s, e)` of the result lies in the block of point `4·b + s / 512`, at row
  `s mod 512`.
-/
import proofs.«430891_j23235773071931_3_alg».proof.Proof.Gen.KernelIdeal.Value
import proofs.«430891_j23235773071931_3_alg».proof.Proof.KernelPayload
import proofs.«430891_j23235773071931_3_alg».proof.Proof.KernelPieces
import proofs.«430891_j23235773071931_3_alg».proof.Proof.KernelBlocks
import proofs.«430891_j23235773071931_3_alg».proof.Proof.AttnSpec

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Cert.Attn Cert.KernelIdeal.Pieces Cert.KernelIdeal.Blocks Cert.KernelIdeal.Payload

variable (m : (ℓ : Loc nD τ sig) → Buf (Elt Ideal) ℓ)

/-- The block of `x` at a point of batch `b`. -/
theorem blk_x' (c : Dev nD) (t : Fin cfg0.N) (b : Fin 4) (hb : t.val / 4 = b.val) (s : Fin 2048) (d : Fin 1024) :
    (iblk m c 0 t : Vec Ideal S1x2048x1024 .bf16) (ix3 (0 : Fin 1) s d) = cur3 (m ((c : Thread nD τ).loc main_arg0)) b s d := by
  have hlt : t.val / 4 < 4 := by have := b.isLt; omega
  obtain rfl : b = ⟨t.val / 4, hlt⟩ := Fin.ext hb.symm
  exact blk_x m c t hlt s d

/-! ## The two scratch arrays -/

/-- At a batch's first tile the key scratch holds the key projection of the batch's block. -/
theorem scrK_first (c : Dev nD) (t : Fin cfg0.N) (h0 : t.val % 4 = 0) :
    (outsAt0 m c t.val t.isLt).2.1 = k0_pay3 (iblk m c 0 t) (iblk m c 3 t) (iblk m c 4 t) := by
  rw [outsAt0_A m c t h0]; dsimp only
  exact scratchK_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)

/-- At a later tile it holds what the tile before left. -/
theorem scrK_later (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  rw [outsAt0_B m c t h0]; rfl

/-- So after every point of batch `b` the key scratch holds the key projection of batch `b`: by induction on the
    point, the batch's first tile storing it and the later tiles keeping it. -/
theorem scrK_apply (c : Dev nD) : ∀ (n : ℕ) (h : n < cfg0.N) (b : Fin 4), n / 4 = b.val → ∀ (tt : Fin 2048) (e : Fin 1024),
    ((outsAt0 m c n h).2.1 : Vec Ideal S2048x1024 .bf16) (ix2 tt e)
      = proj (cur3 (m ((c : Thread nD τ).loc main_arg0))) (cur2 (m ((c : Thread nD τ).loc main_arg3))) (cur1 (m ((c : Thread nD τ).loc main_arg4))) b tt e
  | 0, h, b, hb, tt, e => by
    rw [scrK_first m c ⟨0, h⟩ rfl]
    refine (pay3_apply _ _ _ tt e).trans ?_
    unfold proj
    rw [blk_bk m c ⟨0, h⟩ e]
    exact congrArg (· + _) (Finset.sum_congr rfl fun d _ => by rw [blk_x' m c ⟨0, h⟩ b hb tt d, blk_wk m c ⟨0, h⟩ e d])
  | n + 1, h, b, hb, tt, e => by
    by_cases h0 : (n + 1) % 4 = 0
    · rw [scrK_first m c ⟨n + 1, h⟩ h0]
      refine (pay3_apply _ _ _ tt e).trans ?_
      unfold proj
      rw [blk_bk m c ⟨n + 1, h⟩ e]
      exact congrArg (· + _) (Finset.sum_congr rfl fun d _ => by rw [blk_x' m c ⟨n + 1, h⟩ b hb tt d, blk_wk m c ⟨n + 1, h⟩ e d])
    · rw [scrK_later m c ⟨n + 1, h⟩ h0]
      exact scrK_apply c n (Nat.lt_of_succ_lt h) b (by omega) tt e

/-- At a batch's first tile the value scratch holds the value projection of the batch's block. -/
theorem scrV_first (c : Dev nD) (t : Fin cfg0.N) (h0 : t.val % 4 = 0) :
    (outsAt0 m c t.val t.isLt).2.2 = k0_pay4 (iblk m c 0 t) (iblk m c 5 t) (iblk m c 6 t) := by
  rw [outsAt0_A m c t h0]; dsimp only
  exact scratchV_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)

/-- At a later tile it holds what the tile before left. -/
theorem scrV_later (c : Dev nD) (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]; rfl

/-- So after every point of batch `b` the value scratch holds the value projection of batch `b`: by induction on the
    point, the batch's first tile storing it and the later tiles keeping it. -/
theorem scrV_apply (c : Dev nD) : ∀ (n : ℕ) (h : n < cfg0.N) (b : Fin 4), n / 4 = b.val → ∀ (tt : Fin 2048) (e : Fin 1024),
    ((outsAt0 m c n h).2.2 : Vec Ideal S2048x1024 .bf16) (ix2 tt e)
      = proj (cur3 (m ((c : Thread nD τ).loc main_arg0))) (cur2 (m ((c : Thread nD τ).loc main_arg5))) (cur1 (m ((c : Thread nD τ).loc main_arg6))) b tt e
  | 0, h, b, hb, tt, e => by
    rw [scrV_first m c ⟨0, h⟩ rfl]
    refine (pay4_apply _ _ _ tt e).trans ?_
    unfold proj
    rw [blk_bv m c ⟨0, h⟩ e]
    exact congrArg (· + _) (Finset.sum_congr rfl fun d _ => by rw [blk_x' m c ⟨0, h⟩ b hb tt d, blk_wv m c ⟨0, h⟩ e d])
  | n + 1, h, b, hb, tt, e => by
    by_cases h0 : (n + 1) % 4 = 0
    · rw [scrV_first m c ⟨n + 1, h⟩ h0]
      refine (pay4_apply _ _ _ tt e).trans ?_
      unfold proj
      rw [blk_bv m c ⟨n + 1, h⟩ e]
      exact congrArg (· + _) (Finset.sum_congr rfl fun d _ => by rw [blk_x' m c ⟨n + 1, h⟩ b hb tt d, blk_wv m c ⟨n + 1, h⟩ e d])
    · rw [scrV_later m c ⟨n + 1, h⟩ h0]
      exact scrV_apply c n (Nat.lt_of_succ_lt h) b (by omega) tt e

/-! ## The output block after a point -/

/-- After every point the output block is the attention tile of the point's query rows over what the scratch arrays
    hold after that point. -/
theorem out_eq (c : Dev nD) (t : Fin cfg0.N) :
    (outsAt0 m c t.val t.isLt).1
      = k0_pay1 (k0_pay5 (xtile (grid0.coords t) (iblk m c 0 t)) (iblk m c 1 t) (iblk m c 2 t)
          (outsAt0 m c t.val t.isLt).2.1 (outsAt0 m c t.val t.isLt).2.2) := by
  by_cases h0 : t.val % 4 = 0
  · rw [scrK_first m c t h0, scrV_first m c t h0, outsAt0_A m c t h0]; dsimp only
    exact out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)
  · rw [scrK_later m c t h0, scrV_later m c t h0, outsAt0_B m c t h0]; dsimp only
    exact out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2

/-- The query tile's row `r` is row `512·qi + r` of the block of `x`. -/
theorem xtile_apply (i : grid0.Coords) (x0 : Vec Ideal S1x2048x1024 .bf16) (r : Fin 512) (s : Fin 2048)
    (hs : s.val = 512 * (i 1).val + r.val) (d : Fin 1024) :
    xtile i x0 (ix3 (0 : Fin 1) r d) = x0 (ix3 (0 : Fin 1) s d) := by
  unfold xtile
  show x0 _ = x0 _
  congr 1
  funext a
  apply Fin.ext
  have ho := k0_off1_eq i
  match a with
  | ⟨0, _⟩ => show k0_off1 i 0 + 1 * 0 = 0; rw [ho]; rfl
  | ⟨1, _⟩ => show k0_off1 i 1 + 1 * r.val = s.val; rw [ho, hs]; show 512 * (i 1).val + 1 * r.val = _; omega
  | ⟨2, _⟩ => show k0_off1 i 2 + 1 * d.val = d.val; rw [ho]; show 0 + 1 * d.val = d.val; omega

/-! ## The result array -/

/-- The result array after the run, at an index. -/
theorem kernel_apply (m : (ℓ : Loc nD τ sig) → Buf (Elt Ideal) ℓ) (c : Dev nD) (b : Fin 4) (s : Fin 2048) (e : Fin 1024) :
    (dats (F := Ideal) m 0 c).arrAt 7 cfg0.N (ix3 b s e)
      = attnK (cur3 (m ((c : Thread nD τ).loc main_arg0))) (cur2 (m ((c : Thread nD τ).loc main_arg1)))
          (cur1 (m ((c : Thread nD τ).loc main_arg2))) (cur2 (m ((c : Thread nD τ).loc main_arg3)))
          (cur1 (m ((c : Thread nD τ).loc main_arg4))) (cur2 (m ((c : Thread nD τ).loc main_arg5)))
          (cur1 (m ((c : Thread nD τ).loc main_arg6))) cK b s e := by
  have hN : cfg0.N = 16 := N_0
  have hbl := b.isLt
  have hsl := s.isLt
  let t : Fin cfg0.N := ⟨4 * b.val + s.val / 512, by rw [hN]; omega⟩
  let r : Fin 512 := ⟨s.val % 512, Nat.mod_lt _ (by decide)⟩
  have htv : t.val = 4 * b.val + s.val / 512 := rfl
  have hrv : r.val = s.val % 512 := rfl
  have hidx : ((cfg0.win 7).blk t).view.emb (ix3 (0 : Fin 1) r e) = (ix3 b s e : S4x2048x1024.Idx) := by
    funext a
    apply Fin.ext
    match a with
    | ⟨0, _⟩ => show win0_7.index t 0 * 1 + 1 * 0 = b.val; rw [(idx_out t).1]; omega
    | ⟨1, _⟩ => show win0_7.index t 1 * 512 + 1 * r.val = s.val; rw [(idx_out t).2.1]; omega
    | ⟨2, _⟩ => show win0_7.index t 2 * 1024 + 1 * e.val = e.val; rw [(idx_out t).2.2]; omega
  have hfl := (dats (F := Ideal) m 0 c).arrAt_emb_eq_flushed 7 Cert.KernelIdeal.Value.disjoint7 t (flush0_7 t) (ix3 (0 : Fin 1) r e)
  rw [hidx] at hfl
  refine hfl.trans ?_
  show (dats (F := Ideal) m 0 c).flushed 7 t (ix3 (0 : Fin 1) r e) = _
  rw [Cert.KernelIdeal.Value.flushed7]
  show (outsAt0 m c t.val t.isLt).1 (ix3 (0 : Fin 1) r e) = _
  rw [out_eq m c t]
  refine (pay1_apply _ r e).trans ?_
  refine (pay5_apply _ _ _ _ _ r e).trans ?_
  unfold attnK
  have hq : (fun e' : Fin 1024 => (∑ d : Fin 1024, xtile (grid0.coords t) (iblk m c 0 t) (ix3 (0 : Fin 1) r d) * (iblk m c 1 t : Vec Ideal S1024x1024 .bf16) (ix2 e' d))
        + (iblk m c 2 t : Vec Ideal S1x1024 .f32) (ix2 (0 : Fin 1) e'))
      = proj (cur3 (m ((c : Thread nD τ).loc main_arg0))) (cur2 (m ((c : Thread nD τ).loc main_arg1))) (cur1 (m ((c : Thread nD τ).loc main_arg2))) b s := by
    funext e'
    unfold proj
    rw [blk_bq m c t e']
    refine congrArg (· + _) (Finset.sum_congr rfl fun d _ => ?_)
    rw [xtile_apply (grid0.coords t) (iblk m c 0 t) r s (by rw [coords_qi t]; omega) d, blk_x' m c t b (by omega) s d, blk_wq m c t e' d]
  have hk : (fun (tt : Fin 2048) (e' : Fin 1024) => ((outsAt0 m c t.val t.isLt).2.1 : Vec Ideal S2048x1024 .bf16) (ix2 tt e'))
      = proj (cur3 (m ((c : Thread nD τ).loc main_arg0))) (cur2 (m ((c : Thread nD τ).loc main_arg3))) (cur1 (m ((c : Thread nD τ).loc main_arg4))) b := by
    funext tt e'
    exact scrK_apply m c t.val t.isLt b (by omega) tt e'
  have hv : (fun (tt : Fin 2048) (e' : Fin 1024) => ((outsAt0 m c t.val t.isLt).2.2 : Vec Ideal S2048x1024 .bf16) (ix2 tt e'))
      = proj (cur3 (m ((c : Thread nD τ).loc main_arg0))) (cur2 (m ((c : Thread nD τ).loc main_arg5))) (cur1 (m ((c : Thread nD τ).loc main_arg6))) b := by
    funext tt e'
    exact scrV_apply m c t.val t.isLt b (by omega) tt e'
  rw [hq, hk, hv]

end Cert.KernelIdeal.KVal

end
-- ==== Proof.lean ====
/-
  Fused self-attention against its einsum / softmax reference, over the extended reals.

  The kernel computes, per batch, the key and value projections once (at the batch's first query tile, kept in two
  scratch arrays for the batch's other tiles) and per query tile `(∑ t, w t · v t) / l` with the query scaled by `1/32`
  before its product with the keys; the reference scales the scores by `1 / sqrt 1024` and normalises every weight,
  `∑ t, (w t / l) · v t`. On finite inputs every intermediate is a real number, the row maximum is attained, the weights
  are positive and the denominator is not zero, so the two are equal by distributivity (Proof/AttnAlgebra.lean); the
  kernel's array is read off its run tile by tile (Proof/KernelValue.lean over Proof/KernelPayload.lean), the reference's
  result stage by stage (Proof/RefValue.lean), and the precondition gives the finiteness (Proof/FiniteArgs.lean).
-/
import proofs.«430891_j23235773071931_3_alg».proof.Defs
import proofs.«430891_j23235773071931_3_alg».proof.Proof.Gen.Kernel
import proofs.«430891_j23235773071931_3_alg».proof.Proof.Gen.Kernel.Skeleton
import proofs.«430891_j23235773071931_3_alg».proof.Proof.Gen.Kernel.Launch
import proofs.«430891_j23235773071931_3_alg».proof.Proof.Gen.Kernel.Points
import proofs.«430891_j23235773071931_3_alg».proof.Proof.Gen.Kernel.Frame
import proofs.«430891_j23235773071931_3_alg».proof.Proof.Gen.KernelIdeal
import proofs.«430891_j23235773071931_3_alg».proof.Proof.Gen.KernelIdeal.Skeleton
import proofs.«430891_j23235773071931_3_alg».proof.Proof.Gen.KernelIdeal.Launch
import proofs.«430891_j23235773071931_3_alg».proof.Proof.Gen.KernelIdeal.Points
import proofs.«430891_j23235773071931_3_alg».proof.Proof.Gen.KernelIdeal.Frame
import proofs.«430891_j23235773071931_3_alg».proof.Proof.Gen.ReferenceIdeal
import proofs.«430891_j23235773071931_3_alg».proof.Proof.Gen.KernelIdeal.Value
import proofs.«430891_j23235773071931_3_alg».proof.Proof.Gen.ReferenceIdeal.Run
import proofs.«430891_j23235773071931_3_alg».proof.Proof.Gen.ReferenceIdeal.Read
import proofs.«430891_j23235773071931_3_alg».proof.Proof.Gen.Pre_finite_inputs
import proofs.«430891_j23235773071931_3_alg».proof.Proof.AttnSpec
import proofs.«430891_j23235773071931_3_alg».proof.Proof.AttnAlgebra
import proofs.«430891_j23235773071931_3_alg».proof.Proof.FiniteArgs
import proofs.«430891_j23235773071931_3_alg».proof.Proof.RefValue
import proofs.«430891_j23235773071931_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening a value that was just narrowed gives the value back. -/
theorem preserves : Cert.preserves_Kernel_KernelIdeal :=
  IdealRules.truncf_extf.statement Cert.KernelIdeal.S512x2048 .f32 .bf16

/-- From memories that agree on the seven finite argument arrays, the kernel's result array after its run and the
    reference's result are one array: at every (batch, row, column) the kernel-side and the reference-side attention
    functions of real arguments are equal. -/
theorem algebraic : Cert.algebraic_KernelIdeal_ReferenceIdeal := by
  intro m ρ m' ρ' hpre hagree
  refine ⟨fun c => (Cert.KernelIdeal.Gen.dats (F := Ideal) m 0 c).arrAt 7 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  funext i
  obtain ⟨b, s, e, rfl⟩ : ∃ (b : Fin 4) (s : Fin 2048) (e : Fin 1024), i = ix3 b s e := ⟨i 0, i 1, i 2, eq_ix3 i⟩
  rw [(hagree c).1, (hagree c).2.1, (hagree c).2.2.1, (hagree c).2.2.2.1, (hagree c).2.2.2.2.1, (hagree c).2.2.2.2.2.1,
    (hagree c).2.2.2.2.2.2]
  obtain ⟨⟨x, hx⟩, ⟨wq, hwq⟩, ⟨vq, hvq⟩, ⟨wk, hwk⟩, ⟨vk, hvk⟩, ⟨wv, hwv⟩, ⟨vv, hvv⟩⟩ := real_of_pre _ _ _ _ _ _ _ (hpre c)
  refine (Cert.ReferenceIdeal.RefValue.ref_apply _ _ _ _ _ _ _ b s e).trans ?_
  refine Eq.trans ?_ (Cert.KernelIdeal.KVal.kernel_apply m c b s e).symm
  rw [hx, hwq, hvq, hwk, hvk, hwv, hvv]
  exact (attnK_eq_attnR x wq vq wk vk wv vv b s e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
